-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : FVec F S600000 .f32) (main_arg3 : FVec F S128x128 .f32) (main_arg4 : IVec S600000 32) (main_arg5 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S600000 .f32 := Host.absf main_arg2
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S600000 : Shape := ⟨1, ![600000]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩
abbrev S10000x128 : Shape := ⟨2, ![10000, 128]⟩

abbrev nBuf : Space → Nat
  | .hbm => 23
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S600000, .f32⟩
  | .hbm, ⟨3, _⟩ => ⟨S128x128, .f32⟩
  | .hbm, ⟨4, _⟩ => ⟨S600000, .i32⟩
  | .hbm, ⟨5, _⟩ => ⟨S600000, .i32⟩
  | .hbm, ⟨6, _⟩ => ⟨S600000x1, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v12) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S600000, .f32⟩
  | .hbm, ⟨3, _⟩ => ⟨S128x128, .f32⟩
  | .hbm, ⟨4, _⟩ => ⟨S600000, .i32⟩
  | .hbm, ⟨5, _⟩ => ⟨S600000, .i32⟩
  | .hbm, ⟨6, _⟩ => ⟨S600000x1, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LayerSpec.lean ====
/-
  The function both programs compute, index by index, on the extended reals.

  A graph-convolution layer with an initial residual: from the aggregated node features `hi` (one row of 128
  channels per node), the initial features `h0` and a 128 × 128 weight `W`,

    support = a · hi + b · h0                       (the blend of aggregate and initial features)
    out     = θ · (support · W) + (1 − θ) · support   (identity-mapped linear map)

  where `a`, `b`, `θ` and `1 − θ` are the four float32 words below, read as the extended reals they encode.
  Both programs use the same four words, so none of them is ever evaluated here.  The matrix product is the plain
  sum over the 128 channels of a row of `support` against a column of `W`.
-/
import Idealize.ShloMosaic.PureOps.Ideal
import Idealize.ShloMosaic.Lib.ValueIdx

noncomputable section

open scoped BigOperators

namespace Cert.LayerSpec

open Idealize.ShloMosaic Idealize.ShloMosaic.ValueIdx

/-- Node features: 50000 nodes, 128 channels each. -/
abbrev Feat : Shape := ⟨2, ![50000, 128]⟩
/-- The square weight on the channels. -/
abbrev Wt : Shape := ⟨2, ![128, 128]⟩

/-- The weight of the aggregated features in the blend (the float32 nearest 0.9). -/
abbrev wAgg : EReal := Ideal.ofBits .f32 0x3F666666#32
/-- The weight of the initial features in the blend (the float32 nearest 0.1). -/
abbrev wInit : EReal := Ideal.ofBits .f32 0x3DCCCCCD#32
/-- The weight `θ` of the linear map (the float32 nearest log 1.5). -/
abbrev wLin : EReal := Ideal.ofBits .f32 0x3ECF991F#32
/-- The weight `1 − θ` of the identity. -/
abbrev wId : EReal := Ideal.ofBits .f32 0x3F183370#32

/-- The blend of aggregated and initial features at one node and channel. -/
def support (hi h0 : FVec Ideal Feat .f32) : FVec Ideal Feat .f32 := fun j =>
  wAgg * hi j + wInit * h0 j

/-- The layer's output at node `i 0`, channel `i 1`: `θ` times row `i 0` of the blend against column `i 1` of the
    weight, plus `1 − θ` times the blend itself. -/
def layer (hi h0 : FVec Ideal Feat .f32) (W : FVec Ideal Wt .f32) : FVec Ideal Feat .f32 := fun i =>
  wLin * (∑ k : Fin 128, support hi h0 (ix2 (i 0) k) * W (ix2 k (i 1))) + wId * support hi h0 i

end Cert.LayerSpec

end
-- ==== Proof.ReferenceLayer.lean ====
/-
  The reference computes the layer.

  Read one operation at a time, the reference forms the aggregate `hi` (a gather of neighbour rows, scaled by the
  edge values and summed into the destination rows), blends it with the initial features, multiplies by the weight
  and combines.  Everything after the aggregate is, entry by entry, the specification's `layer` of the aggregate:
  the product is the sum over the 128 channels, and the splatted constants are the specification's four words.
-/
import proofs.«158237_j1984274891520_1_alg».proof.Proof.Gen.ReferenceIdeal.Read
import proofs.«158237_j1984274891520_1_alg».proof.Proof.LayerSpec

noncomputable section

open scoped BigOperators

namespace Cert.ReferenceIdeal.Layer

open Cert.ReferenceIdeal Cert.ReferenceIdeal.Read Idealize.ShloMosaic Idealize.ShloMosaic.ValueIdx Cert.LayerSpec

/-- The left operand of the product at output entry `i` and channel `k` is entry `(i 0, k)` of the blend … -/
theorem lidx_eq (i : S50000x128.Idx) (k : Fin 128) : lidx_main_v18 i k = ix2 (i 0) k :=
  funext fun a => Fin.ext (by match a with | ⟨0, _⟩ => rfl | ⟨1, _⟩ => rfl)
/-- … and the right operand entry `(k, i 1)` of the weight. -/
theorem ridx_eq (i : S50000x128.Idx) (k : Fin 128) : ridx_main_v18 i k = ix2 k (i 1) :=
  funext fun a => Fin.ext (by match a with | ⟨0, _⟩ => rfl | ⟨1, _⟩ => rfl)

/-- The reference's blend is the specification's, of its own aggregate. -/
theorem blend_eq (x0 x1 : FVec Ideal S50000x128 .f32) (x2 : FVec Ideal S600000 .f32) (x4 x5 : IVec S600000 32) :
    val_main_v17 (F := Ideal) x0 x1 x2 x4 x5 = support (val_main_v12 (F := Ideal) x0 x2 x4 x5) x1 := by
  funext j
  rw [val_main_v17_apply, val_main_v14_apply, val_main_v16_apply, val_main_v13_apply, val_main_v15_apply,
    val_main_cst_1_apply, val_main_cst_2_apply]
  rfl

/-- The reference's result is the specification's layer of its own aggregate, the initial features and the weight. -/
theorem result_eq (x0 x1 : FVec Ideal S50000x128 .f32) (x2 : FVec Ideal S600000 .f32) (x3 : FVec Ideal S128x128 .f32)
    (x4 x5 : IVec S600000 32) :
    val_main_v23 (F := Ideal) x0 x1 x2 x3 x4 x5 = layer (val_main_v12 (F := Ideal) x0 x2 x4 x5) x1 x3 := by
  funext i
  rw [val_main_v23_apply, val_main_v20_apply, val_main_v22_apply, val_main_v18_apply, val_main_v19_apply,
    val_main_v21_apply, val_main_cst_3_apply, val_main_cst_4_apply, blend_eq]
  simp only [lidx_eq, ridx_eq]
  rfl

end Cert.ReferenceIdeal.Layer

end
-- ==== Proof.BlockPayload.lean ====
/-
  What the kernel body stores, read at one entry of a block.

  On a block of 10000 node rows the body forms the blend `a · hi + b · h0` entry by entry, multiplies the block
  of blends by the whole 128 × 128 weight (a matrix product into a zero accumulator, so just the sum over the
  128 channels; the narrowing to bfloat16 before it is the identity on extended reals) and adds `θ` times the
  product to `1 − θ` times the blend.  At row `p`, channel `q` of the block that is

    θ · Σ_k (a · x0[p,k] + b · x1[p,k]) · w[k,q]  +  (1 − θ) · (a · x0[p,q] + b · x1[p,q]).
-/
import proofs.«158237_j1984274891520_1_alg».proof.Proof.Gen.KernelIdeal.Skeleton
import proofs.«158237_j1984274891520_1_alg».proof.Proof.LayerSpec
import Idealize.ShloMosaic.Lib.Pipeline.Value
import Idealize.ShloMosaic.Lib.ValueIdx
import Idealize.ShloMosaic.PureOps.Ideal.Laws

noncomputable section

open scoped BigOperators

namespace Cert.KernelIdeal.BlockPayload

open Cert.KernelIdeal Cert.KernelIdeal.Gen Idealize.ShloMosaic Idealize.ShloMosaic.ValueIdx Cert.LayerSpec

/-! ## The block product's operand indices

The product contracts axis 1 of the block of blends with axis 0 of the weight: at output entry `(r, c)` and
contraction coordinate `k` the left operand is read at `(r, k)` and the right at `(k, c)`. -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_chan (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_chan (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product into the zero accumulator, at row `p` and channel `q`: the sum over the 128 channels of the
    left block's row `p` against the right operand's column `q`. -/
theorem blockProduct_apply (l : FVec Ideal S10000x128 .bf16) (r : FVec Ideal S128x128 .bf16) (p : Fin 10000) (q : Fin 128) :
    matmul (F := Ideal) dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_chan _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_chan _ _).trans hk
    | ⟨1, _⟩ => exact rhs_col _ _)
  rw [el, er]

/-- The stored value at row `p`, channel `q` of the block, from the three loaded blocks. -/
theorem stored_apply (x0 x1 : Vec Ideal S10000x128 .f32) (w : Vec Ideal S128x128 .f32) (p : Fin 10000) (q : Fin 128) :
    k0_pay1 (F := Ideal) x0 x1 w (ix2 p q)
      = wLin * (∑ k : Fin 128, (wAgg * x0 (ix2 p k) + wInit * x1 (ix2 p k)) * w (ix2 k q))
        + wId * (wAgg * x0 (ix2 p q) + wInit * x1 (ix2 p q)) := by
  unfold k0_pay1
  rw [addf_apply, mulf_apply, blockProduct_apply, shapeCast_self]
  rfl

end Cert.KernelIdeal.BlockPayload

end
-- ==== Proof.LayerArray.lean ====
/-
  From the blocks the grid points write to the whole output array.

  The grid has five points; point `t` works on node rows `10000·t … 10000·t + 9999`.  Its blocks of the aggregate and
  of the initial features are those rows of the two arrays, its block of the weight is the whole weight, and the
  block it writes back is those rows of the output.  Because row `p` of the stored block depends only on row `p` of
  the two feature blocks (and on the whole weight), what point `t` writes is rows `10000·t …` of the
  specification's `layer` of the whole arrays.  The five row ranges cover the 50000 rows (row `r` lies in the block
  of point `r / 10000`), so after the run the output array is `layer` of the arrays the region found.
-/
import proofs.«158237_j1984274891520_1_alg».proof.Proof.Gen.KernelIdeal.Value
import proofs.«158237_j1984274891520_1_alg».proof.Proof.BlockPayload
import proofs.«158237_j1984274891520_1_alg».proof.Proof.LayerSpec
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.LayerArray

open Cert.KernelIdeal Cert.KernelIdeal.Gen Cert.KernelIdeal.Value Idealize.ShloMosaic.ValueIdx Cert.LayerSpec

variable (m : (ℓ : Loc nD τ sig) → Buf (Elt Ideal) ℓ) (ρ : Dev nD → PrngReg)

theorem offsets_zero : (![0, 0] : Fin 2 → Nat) = fun _ => 0 := funext fun a => by fin_cases a <;> rfl

/-- The block index of every window at every grid point: the three row-blocked windows are at row block `t`, column
    block 0; the weight's window stays at block (0, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the body reads, as the region finds them. -/
abbrev aggArr (c : Dev nD) : FVec Ideal S50000x128 .f32 := V m c main_v12
abbrev initArr (c : Dev nD) : FVec Ideal S50000x128 .f32 := V m c main_arg1
abbrev wArr (c : Dev nD) : FVec Ideal S128x128 .f32 := V m c main_arg3

/-- Row `p` of point `t`'s block of the aggregate is row `10000·t + p` of the array. -/
theorem agg_block (c : Dev nD) (t : Fin cfg0.N) (p : Fin 10000) (k : Fin 128) (r : Fin 50000)
    (hr : r.val = 10000 * t.val + p.val) :
    (iblk m c 0 t : Vec Ideal S10000x128 .f32) (ix2 p k) = aggArr m c (ix2 r k) := by
  unfold iblk
  rw [View.read_apply]
  show V m c main_v12 _ = V m c main_v12 _
  congr 1
  funext a
  apply Fin.ext
  match a with
  | ⟨0, _⟩ => show win0_0.index t 0 * 10000 + 1 * p.val = r.val; rw [(block_index t).1, hr]; omega
  | ⟨1, _⟩ => show win0_0.index t 1 * 128 + 1 * k.val = k.val; rw [(block_index t).2.1]; omega

/-- Row `p` of point `t`'s block of the initial features is row `10000·t + p` of the array. -/
theorem init_block (c : Dev nD) (t : Fin cfg0.N) (p : Fin 10000) (k : Fin 128) (r : Fin 50000)
    (hr : r.val = 10000 * t.val + p.val) :
    (iblk m c 1 t : Vec Ideal S10000x128 .f32) (ix2 p k) = initArr m c (ix2 r k) := by
  unfold iblk
  rw [View.read_apply]
  show V m c main_arg1 _ = V m c main_arg1 _
  congr 1
  funext a
  apply Fin.ext
  match a with
  | ⟨0, _⟩ => show win0_1.index t 0 * 10000 + 1 * p.val = r.val; rw [(block_index t).2.2.1, hr]; omega
  | ⟨1, _⟩ => show win0_1.index t 1 * 128 + 1 * k.val = k.val; rw [(block_index t).2.2.2.1]; omega

/-- Every point's block of the weight is the whole weight. -/
theorem w_block (c : Dev nD) (t : Fin cfg0.N) (k q : Fin 128) :
    (iblk m c 2 t : Vec Ideal S128x128 .f32) (ix2 k q) = wArr m c (ix2 k q) := by
  unfold iblk
  rw [View.read_apply]
  show V m c main_arg3 _ = V m c main_arg3 _
  congr 1
  funext a
  apply Fin.ext
  match a with
  | ⟨0, _⟩ => show win0_2.index t 0 * 128 + 1 * k.val = k.val; rw [(block_index t).2.2.2.2.1]; omega
  | ⟨1, _⟩ => show win0_2.index t 1 * 128 + 1 * q.val = q.val; rw [(block_index t).2.2.2.2.2.1]; omega

/-- What point `t` stores at entry `y` of its block is the layer of the whole arrays at the array entry `i` that
    `y` sits at: row `10000·t + y 0`, the same channel. -/
theorem stored_eq_layer (c : Dev nD) (t : Fin cfg0.N) (y : S10000x128.Idx) (i : S50000x128.Idx)
    (h0 : (i 0).val = 10000 * t.val + (y 0).val) (h1 : (i 1).val = (y 1).val) :
    k0_pay1 (F := Ideal) (iblk m c 0 t) (iblk m c 1 t) (iblk m c 2 t) y
      = layer (aggArr m c) (initArr m c) (wArr m c) i := by
  obtain ⟨p, q, rfl⟩ : ∃ (p : Fin 10000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext h1
  have hr : r.val = 10000 * t.val + p.val := h0
  refine (BlockPayload.stored_apply (iblk m c 0 t) (iblk m c 1 t) (iblk m c 2 t) p s).trans ?_
  have e0 : ∀ k : Fin 128, (iblk m c 0 t : Vec Ideal S10000x128 .f32) (ix2 p k) = aggArr m c (ix2 r k) :=
    fun k => agg_block m c t p k r hr
  have e1 : ∀ k : Fin 128, (iblk m c 1 t : Vec Ideal S10000x128 .f32) (ix2 p k) = initArr m c (ix2 r k) :=
    fun k => init_block m c t p k r hr
  have e2 : ∀ k : Fin 128, (iblk m c 2 t : Vec Ideal S128x128 .f32) (ix2 k s) = wArr m c (ix2 k s) :=
    fun k => w_block m c t k s
  simp only [e0, e1, e2]
  rfl

/-- WHAT POINT `t` WRITES BACK is its block of the layer of the whole arrays. -/
theorem flushed_eq (c : Dev nD) (t : Fin cfg0.N) :
    (dats m 0 c).flushed 3 t
      = ((cfg0.win 3).blk t).view.read (Elt Ideal) (layer (aggArr m c) (initArr m c) (wArr m c)) := by
  rw [flushed3]
  unfold out0_3
  rw [View.canon_unit_zero offsets_zero]
  simp only [View.ld_unit_zero (S := S10000x128) offsets_zero, View.ld_unit_zero (S := S128x128) offsets_zero]
  funext j
  show k0_pay1 (F := Ideal) (iblk m c 0 t) (iblk m c 1 t) (iblk m c 2 t) j
    = layer (aggArr m c) (initArr m c) (wArr m c) (((cfg0.win 3).blk t).view.emb j)
  refine stored_eq_layer m c t j _ ?_ ?_
  · show win0_3.index t (0 : Fin 2) * 10000 + 1 * (j 0).val = _
    rw [(block_index t).2.2.2.2.2.2.1]; omega
  · show win0_3.index t (1 : Fin 2) * 128 + 1 * (j 1).val = _
    rw [(block_index t).2.2.2.2.2.2.2]; omega

/-- An entry of the output array is in point `t`'s block iff each coordinate is in the block's range on its axis. -/
theorem mem_block (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v13).slice (win0_3.rect t)).set ↔ _
  rw [View.set_slice_whole, Rect.mem_set_unit]
  exact Iff.rfl

/-- Every row block is some point's. -/
theorem block_onto : ∀ b : Fin 5, ∃ t : Fin cfg0.N, t.val = b.val :=
  (by decide +kernel : ∀ b : Fin 5, ∃ t : Fin grid0.N, t.val = b.val)

/-- Every entry of the output array is in the block of the point its row falls to. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_onto ⟨(i 0).val / 10000, by omega⟩
  have ht' : t.val = (i 0).val / 10000 := ht
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    rw [(block_index t).2.2.2.2.2.2.1]; omega
  | ⟨1, _⟩ =>
    show win0_3.index t (1 : Fin 2) * 128 ≤ (i 1).val ∧ (i 1).val < win0_3.index t (1 : Fin 2) * 128 + 128
    rw [(block_index t).2.2.2.2.2.2.2]; omega

/-- THE OUTPUT ARRAY after the run: the layer of the aggregate, the initial features and the weight as the region
    found them. -/
theorem final (c : Dev nD) :
    (dats m 0 c).arrAt 3 cfg0.N = layer (aggArr m c) (initArr m c) (wArr m c) :=
  (dats m 0 c).arrAt_eq_of_cover 3 (layer (aggArr m c) (initArr m c) (wArr m c))
    (fun t _ => flushed_eq m c t) covered

/-- The kernel program's run, read: the result array at the layer of the arrays the region found, the arguments
    unchanged. -/
theorem run : θ_run defs (onTc (τ := τ) (main (F := Ideal))) ⟨m, fun _ => 0, ρ⟩ fun r => ∀ c : Dev nD,
      r.2.mem ((c : Thread nD τ).loc main_v13) = layer (aggArr m c) (initArr m c) (wArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.LayerArray

end
-- ==== Proof.Aggregate.lean ====
/-
  The aggregate the kernel's region finds is the reference's aggregate.

  Before the region the kernel program runs sixteen host operations: it wraps negative column indices, gathers the
  neighbours' feature rows, scales each by its edge value and sums the scaled rows into their destination rows.  The
  reference begins with the same sixteen operations on the same arguments, so the array the region finds under its
  first window is the reference's aggregate stage of the same four argument arrays.  The two programs name their
  gather and scatter dimension records separately; the records agree field by field.
-/
import proofs.«158237_j1984274891520_1_alg».proof.Proof.Gen.KernelIdeal.Frame
import proofs.«158237_j1984274891520_1_alg».proof.Proof.Gen.ReferenceIdeal.Read
import Idealize.ShloMosaic.Lib.StableHlo.Run

noncomputable section

namespace Cert.KernelIdeal.Aggregate

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The array under the region's first window, as the region finds it, is the reference's aggregate of the node
    features, the edge values and the two index arrays as launched. -/
theorem found_eq (c : Dev nD) :
    (V m c main_v12 : S50000x128.Idx → EReal)
      = Cert.ReferenceIdeal.Read.val_main_v12 (F := Ideal) (m ((c.tc : Thread nD τ).loc main_arg0))
          (m ((c.tc : Thread nD τ).loc main_arg2)) (m ((c.tc : Thread nD τ).loc main_arg4))
          (m ((c.tc : Thread nD τ).loc main_arg5)) := by
  dsimp only [Gen.V, Gen.hostOps0]
  after_results
  rfl

end Cert.KernelIdeal.Aggregate

end
-- ==== Proof.lean ====
/-
  The certificate of a graph-convolution layer with an initial residual: a Pallas kernel that fuses the blend of
  aggregated and initial node features, the product with a 128 × 128 weight and the identity-mapped combination,
  against the same layer written in plain array operations.

  Both programs first form the aggregate `hi` — each edge gathers its source node's feature row, scales it by the
  edge value, and the scaled rows are summed into the destination nodes' rows — with the same host operations.  Then

    support = a · hi + b · h0,      out = θ · (support · W) + (1 − θ) · support,

  the kernel five blocks of 10000 node rows at a time (narrowing the product's operands to bfloat16, which on
  extended reals is the identity), the reference on the whole arrays at once.  Row `r` of the output depends only on
  row `r` of `hi` and `h0` and on `W`, so the blocks the kernel writes are blocks of the reference's result; the
  matrix product is the same sum over the 128 channels on both sides, and the four float constants are the same
  words on both sides.  No algebraic law beyond that is needed, and the inputs' finiteness is never used.

  The modules: `LayerSpec` (the function, index by index), `ReferenceLayer` (the reference computes it),
  `BlockPayload` (what the kernel body stores at an entry of a block), `LayerArray` (from the blocks to the output
  array, and the kernel program's run), `Aggregate` (the aggregate the region finds is the reference's).  The frames
  of the two kernel programs are the generated ones; the reference's frame is its generated run with the result
  dropped; the idealization rewrote nothing, so `preserves` is trivial.
-/
import proofs.«158237_j1984274891520_1_alg».proof.Defs
import proofs.«158237_j1984274891520_1_alg».proof.Proof.Gen.Kernel
import proofs.«158237_j1984274891520_1_alg».proof.Proof.Gen.Kernel.Skeleton
import proofs.«158237_j1984274891520_1_alg».proof.Proof.Gen.Kernel.Launch
import proofs.«158237_j1984274891520_1_alg».proof.Proof.Gen.Kernel.Points
import proofs.«158237_j1984274891520_1_alg».proof.Proof.Gen.Kernel.Frame
import proofs.«158237_j1984274891520_1_alg».proof.Proof.Gen.KernelIdeal
import proofs.«158237_j1984274891520_1_alg».proof.Proof.Gen.KernelIdeal.Skeleton
import proofs.«158237_j1984274891520_1_alg».proof.Proof.Gen.KernelIdeal.Launch
import proofs.«158237_j1984274891520_1_alg».proof.Proof.Gen.KernelIdeal.Points
import proofs.«158237_j1984274891520_1_alg».proof.Proof.Gen.KernelIdeal.Frame
import proofs.«158237_j1984274891520_1_alg».proof.Proof.Gen.ReferenceIdeal
import proofs.«158237_j1984274891520_1_alg».proof.Proof.Gen.Pre_finite_inputs
import proofs.«158237_j1984274891520_1_alg».proof.Proof.Gen.KernelIdeal.Value
import proofs.«158237_j1984274891520_1_alg».proof.Proof.Gen.ReferenceIdeal.Run
import proofs.«158237_j1984274891520_1_alg».proof.Proof.Gen.ReferenceIdeal.Read
import proofs.«158237_j1984274891520_1_alg».proof.Proof.LayerSpec
import proofs.«158237_j1984274891520_1_alg».proof.Proof.ReferenceLayer
import proofs.«158237_j1984274891520_1_alg».proof.Proof.BlockPayload
import proofs.«158237_j1984274891520_1_alg».proof.Proof.LayerArray
import proofs.«158237_j1984274891520_1_alg».proof.Proof.Aggregate
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel :=
  fun m ρ _ => Cert.Kernel.Gen.frame m ρ

/-- So does the idealized kernel program. -/
theorem frame_kernelIdeal : Cert.frame_KernelIdeal :=
  fun m ρ _ => Cert.KernelIdeal.Gen.frame m ρ

/-- And the reference: its run, with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- On extended reals the kernel program's result array ends at the layer of the aggregate it found, the initial
    features and the weight; the reference's ends at the layer of its own aggregate of the same arguments; and the
    two aggregates are one term. -/
theorem algebraic : Cert.algebraic_KernelIdeal_ReferenceIdeal := by
  intro m ρ m' ρ' _ hagree
  refine ⟨fun c => Cert.LayerSpec.layer (Cert.KernelIdeal.LayerArray.aggArr m c)
    (Cert.KernelIdeal.LayerArray.initArr m c) (Cert.KernelIdeal.LayerArray.wArr m c),
    Cert.KernelIdeal.LayerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Layer.result_eq,
    (hagree c).1, (hagree c).2.1, (hagree c).2.2.1, (hagree c).2.2.2.1, (hagree c).2.2.2.2.1, (hagree c).2.2.2.2.2]
  show Cert.LayerSpec.layer _ _ _ = Cert.LayerSpec.layer (Cert.KernelIdeal.Gen.V m c Cert.KernelIdeal.main_v12)
    (Cert.KernelIdeal.Gen.V m c Cert.KernelIdeal.main_arg1) (Cert.KernelIdeal.Gen.V m c Cert.KernelIdeal.main_arg3)
  rw [Cert.KernelIdeal.Aggregate.found_eq m c, Cert.KernelIdeal.Gen.V_main_arg1 m c,
    Cert.KernelIdeal.Gen.V_main_arg3 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
